-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S131072x3 .f32) (main_arg1 : FVec F S3x128 .f32) (main_arg2 : FVec F S128 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S3x128 .f32 := Host.absf main_arg1
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S131072x3 : Shape := ⟨2, ![131072, 3]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S3x131072 : Shape := ⟨2, ![3, 131072]⟩
abbrev S128x3 : Shape := ⟨2, ![128, 3]⟩
abbrev S1x128 : Shape := ⟨2, ![1, 128]⟩
abbrev S1x1 : Shape := ⟨2, ![1, 1]⟩
abbrev S1x131072 : Shape := ⟨2, ![1, 131072]⟩
abbrev S3x16384 : Shape := ⟨2, ![3, 16384]⟩
abbrev S1x16384 : Shape := ⟨2, ![1, 16384]⟩
abbrev S128x16384 : Shape := ⟨2, ![128, 16384]⟩
abbrev S131072x1 : Shape := ⟨2, ![131072, 1]⟩

abbrev nBuf : Space → Nat
  | .hbm => 24
  | .vmem => 12
  | .smem => 0
  | _ => 0

abbrev bufTy : (tb : Table) → Fin (tcTables nBuf tb) → BufTy
  | .hbm, ⟨0, _⟩ => ⟨S131072x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S3x131072, .f32⟩
  | .hbm, ⟨10, _⟩ => ⟨S128x3, .f32⟩
  | .hbm, ⟨11, _⟩ => ⟨S128x3, .bf16⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .bf16⟩
  | .hbm, ⟨16, _⟩ => ⟨S1x128, .f32⟩
  | .hbm, ⟨17, _⟩ => ⟨S1x128, .bf16⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S1x1, .f32⟩
  | .hbm, ⟨22, _⟩ => ⟨S1x131072, .f32⟩
  | .hbm, ⟨23, _⟩ => ⟨S131072x1, .f32⟩
  | .local _ .vmem, ⟨0, _⟩ => ⟨S3x16384, .f32⟩
  | .local _ .vmem, ⟨1, _⟩ => ⟨S3x16384, .f32⟩
  | .local _ .vmem, ⟨2, _⟩ => ⟨S128x3, .bf16⟩
  | .local _ .vmem, ⟨3, _⟩ => ⟨S128x1, .f32⟩
  | .local _ .vmem, ⟨4, _⟩ => ⟨S128x128, .bf16⟩
  | .local _ .vmem, ⟨5, _⟩ => ⟨S128x1, .f32⟩
  | .local _ .vmem, ⟨6, _⟩ => ⟨S128x128, .bf16⟩
  | .local _ .vmem, ⟨7, _⟩ => ⟨S128x1, .f32⟩
  | .local _ .vmem, ⟨8, _⟩ => ⟨S1x128, .bf16⟩
  | .local _ .vmem, ⟨9, _⟩ => ⟨S1x1, .f32⟩
  | .local _ .vmem, ⟨10, _⟩ => ⟨S1x16384, .f32⟩
  | .local _ .vmem, ⟨11, _⟩ => ⟨S1x16384, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S131072x3_S3x131072_1_0 : S131072x3.Transposes [1, 0] S3x131072
  transposes_S3x128_S128x3_1_0 : S3x128.Transposes [1, 0] S128x3
  bitsLt_bf16_f32 : FTy.bits .bf16 < FTy.bits .f32
  transposes_S128x128_S128x128_1_0 : S128x128.Transposes [1, 0] S128x128
  transposes_S128x1_S1x128_1_0 : S128x1.Transposes [1, 0] S1x128
  shapeCasts_S128_S128x1 : S128.ShapeCasts S128x1
  shapeCasts_S1_S1x1 : S1.ShapeCasts S1x1
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  inb_S1x16384_S1x16384_0_0 : ∀ a, (![0, 0] : Fin 2 → Nat) a + S1x16384.size a ≤ S1x16384.size a
  h_S1x16384 : 0 < S1x16384.numel
  shapeCasts_S1x131072_S131072x1 : S1x131072.ShapeCasts S131072x1
  dot_S128x3_S3x16384_S128x16384_1_0_0_1_n_n_wf : DotDims.WF S128x3 S3x16384 S128x16384 [1] [0] [0] [1] [] []
  dot_S128x128_S128x16384_S128x16384_1_0_0_1_n_n_wf : DotDims.WF S128x128 S128x16384 S128x16384 [1] [0] [0] [1] [] []
  dot_S1x128_S128x16384_S1x16384_1_0_0_1_n_n_wf : DotDims.WF S1x128 S128x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16384.size a ≤ S3x131072.size a
  hwx0_0 : ∀ i : grid0.Coords, EltTy.bits .f32 = 32 ∨ (Rect.block (s := S3x131072) S3x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .bf16 = 32 ∨ (Rect.block (s := S128x3) S128x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .bf16 = 32 ∨ (Rect.block (s := S1x128) S1x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16384.size a ≤ S1x131072.size a
  hwx0_9 : ∀ i : grid0.Coords, EltTy.bits .f32 = 32 ∨ (Rect.block (s := S1x131072) S1x16384.size (cc0_transform_9 i) (hinb0_9 i)).WholeWords (EltTy.packing .f32)

variable [Facts₀]

def dot_S128x3_S3x16384_S128x16384_1_0_0_1_n_n : DotDims S128x3 S3x16384 S128x16384 where
  lhsContracting := [1]
  rhsContracting := [0]
  lhsNonContracting := [0]
  rhsNonContracting := [1]
  lhsBatch := []
  rhsBatch := []
  wf := dot_S128x3_S3x16384_S128x16384_1_0_0_1_n_n_wf
def dot_S128x128_S128x16384_S128x16384_1_0_0_1_n_n : DotDims S128x128 S128x16384 S128x16384 where
  lhsContracting := [1]
  rhsContracting := [0]
  lhsNonContracting := [0]
  rhsNonContracting := [1]
  lhsBatch := []
  rhsBatch := []
  wf := dot_S128x128_S128x16384_S128x16384_1_0_0_1_n_n_wf
def dot_S1x128_S128x16384_S1x16384_1_0_0_1_n_n : DotDims S1x128 S128x16384 S1x16384 where
  lhsContracting := [1]
  rhsContracting := [0]
  lhsNonContracting := [0]
  rhsNonContracting := [1]
  lhsBatch := []
  rhsBatch := []
  wf := dot_S1x128_S128x16384_S1x16384_1_0_0_1_n_n_wf

abbrev win0_0 : Pipeline.Window sig grid0 :=
  Pipeline.Window.ofSpec (Memref.whole main_v0) S3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x16384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x3 : Shape := ⟨2, ![131072, 3]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S131072x128 : Shape := ⟨2, ![131072, 128]⟩
abbrev S1x128 : Shape := ⟨2, ![1, 128]⟩
abbrev S131072x1 : Shape := ⟨2, ![131072, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S131072x128, .f32⟩
  | .hbm, ⟨10, _⟩ => ⟨S1x128, .f32⟩
  | .hbm, ⟨11, _⟩ => ⟨S131072x128, .f32⟩
  | .hbm, ⟨12, _⟩ => ⟨S131072x128, .f32⟩
  | .hbm, ⟨13, _⟩ => ⟨S131072x128, .f32⟩
  | .hbm, ⟨14, _⟩ => ⟨S131072x128, .f32⟩
  | .hbm, ⟨15, _⟩ => ⟨S1x128, .f32⟩
  | .hbm, ⟨16, _⟩ => ⟨S131072x128, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S1x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x1, .f32⟩
  | .hbm, ⟨25, _⟩ => ⟨S1x1, .f32⟩
  | .hbm, ⟨26, _⟩ => ⟨S131072x1, .f32⟩
  | .hbm, ⟨27, _⟩ => ⟨S131072x1, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  dot_S131072x3_S3x128_S131072x128_1_0_0_1_n_n_wf : DotDims.WF S131072x3 S3x128 S131072x128 [1] [0] [0] [1] [] []
  dot_S131072x128_S128x128_S131072x128_1_0_0_1_n_n_wf : DotDims.WF S131072x128 S128x128 S131072x128 [1] [0] [0] [1] [] []
  dot_S131072x128_S128x1_S131072x1_1_0_0_1_n_n_wf : DotDims.WF S131072x128 S128x1 S131072x1 [1] [0] [0] [1] [] []

variable [Facts₀]

def dot_S131072x3_S3x128_S131072x128_1_0_0_1_n_n : DotDims S131072x3 S3x128 S131072x128 where
  lhsContracting := [1]
  rhsContracting := [0]
  lhsNonContracting := [0]
  rhsNonContracting := [1]
  lhsBatch := []
  rhsBatch := []
  wf := dot_S131072x3_S3x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x1_S131072x1_1_0_0_1_n_n : DotDims S131072x128 S128x1 S131072x1 where
  lhsContracting := [1]
  rhsContracting := [0]
  lhsNonContracting := [0]
  rhsNonContracting := [1]
  lhsBatch := []
  rhsBatch := []
  wf := dot_S131072x128_S128x1_S131072x1_1_0_0_1_n_n_wf

class Facts : Prop extends Facts₀ where

variable [Facts]
-- ==== Proof.Spec.lean ====
/-
  The function both programs compute, written once over the argument arrays.

  A coordinate network 3 → 128 → 128 → 128 → 1 with tanh between the layers: for a row `r` of the input,
    h₁ j = tanh (∑ k, x r k · W₁ k j + b₁ j),   h₂ j = tanh (∑ k, h₁ k · W₂ k j + b₂ j),
    h₃ j = tanh (∑ k, h₂ k · W₃ k j + b₃ j),    out r = ∑ k, h₃ k · W₄ k 0 + b₄ 0,
  all on the extended reals (every float an exact extended real, every sum a finite sum, `tanh` the
  extension with tanh (±∞) = ±1). The kernel evaluates the same network transposed — features down the
  rows, the batch along the columns, each product written weight first — so the only law needed to join
  the two sides is commutativity of the product, which holds on all of the extended reals; no finiteness
  of the inputs is used.
-/
import Idealize.ShloMosaic.PureOps.Ideal
import Idealize.ShloMosaic.Lib.ValueIdx

noncomputable section

open scoped BigOperators

namespace Cert.Mlp

open Idealize.ShloMosaic Idealize.ShloMosaic.ValueIdx

/-- One dense layer before its activation, at output feature `j`: `∑ k, h k · W k j + b j`. -/
def dense {K N : Nat} (h : Fin K → EReal) (w : (⟨2, ![K, N]⟩ : Shape).Idx → EReal)
    (b : (⟨1, ![N]⟩ : Shape).Idx → EReal) (j : Fin N) : EReal :=
  (∑ k : Fin K, h k * w (ix2 k j)) + b (ix1 j)

/-- The same layer with every product written weight first, as the transposed evaluation has it. -/
def denseT {K N : Nat} (h : Fin K → EReal) (w : (⟨2, ![K, N]⟩ : Shape).Idx → EReal)
    (b : (⟨1, ![N]⟩ : Shape).Idx → EReal) (j : Fin N) : EReal :=
  (∑ k : Fin K, w (ix2 k j) * h k) + b (ix1 j)

/-- The product of extended reals commutes, so the two spellings are one layer. -/
theorem denseT_eq {K N : Nat} (h : Fin K → EReal) (w : (⟨2, ![K, N]⟩ : Shape).Idx → EReal)
    (b : (⟨1, ![N]⟩ : Shape).Idx → EReal) (j : Fin N) : denseT h w b j = dense h w b j := by
  unfold denseT dense
  exact congrArg (· + b (ix1 j)) (Finset.sum_congr rfl fun k _ => mul_comm _ _)

section Net

variable (x : (⟨2, ![131072, 3]⟩ : Shape).Idx → EReal)
  (w1 : (⟨2, ![3, 128]⟩ : Shape).Idx → EReal) (b1 : (⟨1, ![128]⟩ : Shape).Idx → EReal)
  (w2 : (⟨2, ![128, 128]⟩ : Shape).Idx → EReal) (b2 : (⟨1, ![128]⟩ : Shape).Idx → EReal)
  (w3 : (⟨2, ![128, 128]⟩ : Shape).Idx → EReal) (b3 : (⟨1, ![128]⟩ : Shape).Idx → EReal)
  (w4 : (⟨2, ![128, 1]⟩ : Shape).Idx → EReal) (b4 : (⟨1, ![1]⟩ : Shape).Idx → EReal)

/-- The first hidden layer of row `r`. -/
def hid1 (r : Fin 131072) (j : Fin 128) : EReal := Ideal.tanh (dense (fun k : Fin 3 => x (ix2 r k)) w1 b1 j)
/-- The second hidden layer of row `r`. -/
def hid2 (r : Fin 131072) (j : Fin 128) : EReal := Ideal.tanh (dense (hid1 x w1 b1 r) w2 b2 j)
/-- The third hidden layer of row `r`. -/
def hid3 (r : Fin 131072) (j : Fin 128) : EReal := Ideal.tanh (dense (hid2 x w1 b1 w2 b2 r) w3 b3 j)
/-- The network's scalar output for row `r`. -/
def outRow (r : Fin 131072) : EReal := dense (hid3 x w1 b1 w2 b2 w3 b3 r) w4 b4 (0 : Fin 1)

/-- The result array f32[131072, 1]: entry (r, 0) is the network's output for row `r`. -/
def result : (⟨2, ![131072, 1]⟩ : Shape).Idx → EReal := fun i => outRow x w1 b1 w2 b2 w3 b3 w4 b4 (i 0)

/-- The same values laid out as the kernel writes them, f32[1, 131072]: entry (0, r). -/
def resultT : (⟨2, ![1, 131072]⟩ : Shape).Idx → EReal := fun i => outRow x w1 b1 w2 b2 w3 b3 w4 b4 (i 1)

/-- The transposed evaluation of the three hidden layers and the output, products weight first. -/
def hid1T (r : Fin 131072) (j : Fin 128) : EReal := Ideal.tanh (denseT (fun k : Fin 3 => x (ix2 r k)) w1 b1 j)
def hid2T (r : Fin 131072) (j : Fin 128) : EReal := Ideal.tanh (denseT (hid1T x w1 b1 r) w2 b2 j)
def hid3T (r : Fin 131072) (j : Fin 128) : EReal := Ideal.tanh (denseT (hid2T x w1 b1 w2 b2 r) w3 b3 j)
def outRowT (r : Fin 131072) : EReal := denseT (hid3T x w1 b1 w2 b2 w3 b3 r) w4 b4 (0 : Fin 1)

theorem hid1T_eq (r : Fin 131072) : hid1T x w1 b1 r = hid1 x w1 b1 r :=
  funext fun j => congrArg Ideal.tanh (denseT_eq _ w1 b1 j)
theorem hid2T_eq (r : Fin 131072) : hid2T x w1 b1 w2 b2 r = hid2 x w1 b1 w2 b2 r :=
  funext fun j => by unfold hid2T hid2; rw [hid1T_eq, denseT_eq]
theorem hid3T_eq (r : Fin 131072) : hid3T x w1 b1 w2 b2 w3 b3 r = hid3 x w1 b1 w2 b2 w3 b3 r :=
  funext fun j => by unfold hid3T hid3; rw [hid2T_eq, denseT_eq]
/-- The transposed evaluation gives the network's output. -/
theorem outRowT_eq (r : Fin 131072) : outRowT x w1 b1 w2 b2 w3 b3 w4 b4 r = outRow x w1 b1 w2 b2 w3 b3 w4 b4 r := by
  unfold outRowT outRow; rw [hid3T_eq, denseT_eq]

end Net

end Cert.Mlp

end
-- ==== Proof.KernelLayer.lean ====
/-
  The kernel's three kinds of arithmetic step, each read at ONE element, on the extended reals.

  * a matrix product into a zero accumulator is the finite sum over the contracted axis of the products
    of the operands' entries: entry (p, q) of A · B is ∑ k, A p k · B k q — for the three products the
    network uses, [128,3]·[3,16384], [128,128]·[128,16384] and [1,128]·[128,16384];
  * adding a bias column [128,1] broadcast along the columns adds entry (p, 0) to every entry of row p;
    adding the 1×1 bias adds its one entry everywhere;
  * tanh acts entry by entry.
  So a hidden layer at (p, q) is tanh (∑ k, A p k · B k q + bias p), and the output row at (0, q) is
  ∑ k, A 0 k · B k q + bias.
-/
import proofs.«141811_g62079457296719_cont_9to1c4b_771_12_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.Layer

open Cert.KernelIdeal Cert.KernelIdeal.Gen Idealize.ShloMosaic Idealize.ShloMosaic.ValueIdx

/-! ## The first layer's product, [128,3] · [3,16384] -/

theorem lhsA_0 (i : S128x16384.Idx) (q : dot_S128x3_S3x16384_S128x16384_1_0_0_1_n_n.contr.Idx) :
    (dot_S128x3_S3x16384_S128x16384_1_0_0_1_n_n.lhsIdx i q 0).val = (i 0).val := by
  unfold DotDims.lhsIdx
  rw [dif_neg (show ¬(0 : Fin S128x3.rank) ∈ dot_S128x3_S3x16384_S128x16384_1_0_0_1_n_n.lhsBatch by decide), dif_pos (show (0 : Fin S128x3.rank) ∈ dot_S128x3_S3x16384_S128x16384_1_0_0_1_n_n.lhsNonContracting by decide)]
  rfl
theorem lhsA_1 (i : S128x16384.Idx) (q : dot_S128x3_S3x16384_S128x16384_1_0_0_1_n_n.contr.Idx) :
    (dot_S128x3_S3x16384_S128x16384_1_0_0_1_n_n.lhsIdx i q 1).val = (q ⟨0, by decide⟩).val :=
  dot_S128x3_S3x16384_S128x16384_1_0_0_1_n_n.lhsIdx_val_of_single rfl i q
theorem rhsA_0 (i : S128x16384.Idx) (q : dot_S128x3_S3x16384_S128x16384_1_0_0_1_n_n.contr.Idx) :
    (dot_S128x3_S3x16384_S128x16384_1_0_0_1_n_n.rhsIdx i q 0).val = (q ⟨0, by decide⟩).val :=
  dot_S128x3_S3x16384_S128x16384_1_0_0_1_n_n.rhsIdx_val_of_single rfl i q
theorem rhsA_1 (i : S128x16384.Idx) (q : dot_S128x3_S3x16384_S128x16384_1_0_0_1_n_n.contr.Idx) :
    (dot_S128x3_S3x16384_S128x16384_1_0_0_1_n_n.rhsIdx i q 1).val = (i 1).val := by
  unfold DotDims.rhsIdx
  rw [dif_neg (show ¬(1 : Fin S3x16384.rank) ∈ dot_S128x3_S3x16384_S128x16384_1_0_0_1_n_n.rhsBatch by decide), dif_pos (show (1 : Fin S3x16384.rank) ∈ dot_S128x3_S3x16384_S128x16384_1_0_0_1_n_n.rhsNonContracting by decide)]
  rfl

/-- Entry (p, q) of the [128,3] · [3,16384] product is the sum over the three input coordinates. -/
theorem mmA_apply (a : FVec Ideal S128x3 .bf16) (b : FVec Ideal S3x16384 .bf16) (p : Fin 128) (q : Fin 16384) :
    matmul dot_S128x3_S3x16384_S128x16384_1_0_0_1_n_n none a b (constant (F := Ideal) S128x16384 .f32 0x00000000#32) (ix2 p q)
      = ∑ k : Fin 3, a (ix2 p k) * b (ix2 k q) := by
  simp only [matmul]
  rw [Ideal.matmul_constant_zero_apply, ← Equiv.sum_comp (contrEquiv1 dot_S128x3_S3x16384_S128x16384_1_0_0_1_n_n 3 rfl rfl).symm]
  refine Finset.sum_congr rfl fun k _ => ?_
  have hk := contrEquiv1_symm_val dot_S128x3_S3x16384_S128x16384_1_0_0_1_n_n 3 rfl rfl k
  have el : dot_S128x3_S3x16384_S128x16384_1_0_0_1_n_n.lhsIdx (ix2 p q) ((contrEquiv1 dot_S128x3_S3x16384_S128x16384_1_0_0_1_n_n 3 rfl rfl).symm k) = ix2 p k := funext fun a => Fin.ext (by
    match a with
    | ⟨0, _⟩ => exact lhsA_0 _ _
    | ⟨1, _⟩ => exact (lhsA_1 _ _).trans hk)
  have er : dot_S128x3_S3x16384_S128x16384_1_0_0_1_n_n.rhsIdx (ix2 p q) ((contrEquiv1 dot_S128x3_S3x16384_S128x16384_1_0_0_1_n_n 3 rfl rfl).symm k) = ix2 k q := funext fun a => Fin.ext (by
    match a with
    | ⟨0, _⟩ => exact (rhsA_0 _ _).trans hk
    | ⟨1, _⟩ => exact rhsA_1 _ _)
  rw [el, er]

/-! ## The hidden layers' product, [128,128] · [128,16384] -/

theorem lhsB_0 (i : S128x16384.Idx) (q : dot_S128x128_S128x16384_S128x16384_1_0_0_1_n_n.contr.Idx) :
    (dot_S128x128_S128x16384_S128x16384_1_0_0_1_n_n.lhsIdx i q 0).val = (i 0).val := by
  unfold DotDims.lhsIdx
  rw [dif_neg (show ¬(0 : Fin S128x128.rank) ∈ dot_S128x128_S128x16384_S128x16384_1_0_0_1_n_n.lhsBatch by decide), dif_pos (show (0 : Fin S128x128.rank) ∈ dot_S128x128_S128x16384_S128x16384_1_0_0_1_n_n.lhsNonContracting by decide)]
  rfl
theorem lhsB_1 (i : S128x16384.Idx) (q : dot_S128x128_S128x16384_S128x16384_1_0_0_1_n_n.contr.Idx) :
    (dot_S128x128_S128x16384_S128x16384_1_0_0_1_n_n.lhsIdx i q 1).val = (q ⟨0, by decide⟩).val :=
  dot_S128x128_S128x16384_S128x16384_1_0_0_1_n_n.lhsIdx_val_of_single rfl i q
theorem rhsB_0 (i : S128x16384.Idx) (q : dot_S128x128_S128x16384_S128x16384_1_0_0_1_n_n.contr.Idx) :
    (dot_S128x128_S128x16384_S128x16384_1_0_0_1_n_n.rhsIdx i q 0).val = (q ⟨0, by decide⟩).val :=
  dot_S128x128_S128x16384_S128x16384_1_0_0_1_n_n.rhsIdx_val_of_single rfl i q
theorem rhsB_1 (i : S128x16384.Idx) (q : dot_S128x128_S128x16384_S128x16384_1_0_0_1_n_n.contr.Idx) :
    (dot_S128x128_S128x16384_S128x16384_1_0_0_1_n_n.rhsIdx i q 1).val = (i 1).val := by
  unfold DotDims.rhsIdx
  rw [dif_neg (show ¬(1 : Fin S128x16384.rank) ∈ dot_S128x128_S128x16384_S128x16384_1_0_0_1_n_n.rhsBatch by decide), dif_pos (show (1 : Fin S128x16384.rank) ∈ dot_S128x128_S128x16384_S128x16384_1_0_0_1_n_n.rhsNonContracting by decide)]
  rfl

/-- Entry (p, q) of the [128,128] · [128,16384] product is the sum over the 128 hidden features. -/
theorem mmB_apply (a : FVec Ideal S128x128 .bf16) (b : FVec Ideal S128x16384 .bf16) (p : Fin 128) (q : Fin 16384) :
    matmul dot_S128x128_S128x16384_S128x16384_1_0_0_1_n_n none a b (constant (F := Ideal) S128x16384 .f32 0x00000000#32) (ix2 p q)
      = ∑ k : Fin 128, a (ix2 p k) * b (ix2 k q) := by
  simp only [matmul]
  rw [Ideal.matmul_constant_zero_apply, ← Equiv.sum_comp (contrEquiv1 dot_S128x128_S128x16384_S128x16384_1_0_0_1_n_n 128 rfl rfl).symm]
  refine Finset.sum_congr rfl fun k _ => ?_
  have hk := contrEquiv1_symm_val dot_S128x128_S128x16384_S128x16384_1_0_0_1_n_n 128 rfl rfl k
  have el : dot_S128x128_S128x16384_S128x16384_1_0_0_1_n_n.lhsIdx (ix2 p q) ((contrEquiv1 dot_S128x128_S128x16384_S128x16384_1_0_0_1_n_n 128 rfl rfl).symm k) = ix2 p k := funext fun a => Fin.ext (by
    match a with
    | ⟨0, _⟩ => exact lhsB_0 _ _
    | ⟨1, _⟩ => exact (lhsB_1 _ _).trans hk)
  have er : dot_S128x128_S128x16384_S128x16384_1_0_0_1_n_n.rhsIdx (ix2 p q) ((contrEquiv1 dot_S128x128_S128x16384_S128x16384_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The output layer's product, [1,128] · [128,16384] -/

theorem lhsC_0 (i : S1x16384.Idx) (q : dot_S1x128_S128x16384_S1x16384_1_0_0_1_n_n.contr.Idx) :
    (dot_S1x128_S128x16384_S1x16384_1_0_0_1_n_n.lhsIdx i q 0).val = (i 0).val := by
  unfold DotDims.lhsIdx
  rw [dif_neg (show ¬(0 : Fin S1x128.rank) ∈ dot_S1x128_S128x16384_S1x16384_1_0_0_1_n_n.lhsBatch by decide), dif_pos (show (0 : Fin S1x128.rank) ∈ dot_S1x128_S128x16384_S1x16384_1_0_0_1_n_n.lhsNonContracting by decide)]
  rfl
theorem lhsC_1 (i : S1x16384.Idx) (q : dot_S1x128_S128x16384_S1x16384_1_0_0_1_n_n.contr.Idx) :
    (dot_S1x128_S128x16384_S1x16384_1_0_0_1_n_n.lhsIdx i q 1).val = (q ⟨0, by decide⟩).val :=
  dot_S1x128_S128x16384_S1x16384_1_0_0_1_n_n.lhsIdx_val_of_single rfl i q
theorem rhsC_0 (i : S1x16384.Idx) (q : dot_S1x128_S128x16384_S1x16384_1_0_0_1_n_n.contr.Idx) :
    (dot_S1x128_S128x16384_S1x16384_1_0_0_1_n_n.rhsIdx i q 0).val = (q ⟨0, by decide⟩).val :=
  dot_S1x128_S128x16384_S1x16384_1_0_0_1_n_n.rhsIdx_val_of_single rfl i q
theorem rhsC_1 (i : S1x16384.Idx) (q : dot_S1x128_S128x16384_S1x16384_1_0_0_1_n_n.contr.Idx) :
    (dot_S1x128_S128x16384_S1x16384_1_0_0_1_n_n.rhsIdx i q 1).val = (i 1).val := by
  unfold DotDims.rhsIdx
  rw [dif_neg (show ¬(1 : Fin S128x16384.rank) ∈ dot_S1x128_S128x16384_S1x16384_1_0_0_1_n_n.rhsBatch by decide), dif_pos (show (1 : Fin S128x16384.rank) ∈ dot_S1x128_S128x16384_S1x16384_1_0_0_1_n_n.rhsNonContracting by decide)]
  rfl

/-- Entry (0, q) of the [1,128] · [128,16384] product is the sum over the 128 hidden features. -/
theorem mmC_apply (a : FVec Ideal S1x128 .bf16) (b : FVec Ideal S128x16384 .bf16) (q : Fin 16384) :
    matmul dot_S1x128_S128x16384_S1x16384_1_0_0_1_n_n none a b (constant (F := Ideal) S1x16384 .f32 0x00000000#32) (ix2 (0 : Fin 1) q)
      = ∑ k : Fin 128, a (ix2 (0 : Fin 1) k) * b (ix2 k q) := by
  simp only [matmul]
  rw [Ideal.matmul_constant_zero_apply, ← Equiv.sum_comp (contrEquiv1 dot_S1x128_S128x16384_S1x16384_1_0_0_1_n_n 128 rfl rfl).symm]
  refine Finset.sum_congr rfl fun k _ => ?_
  have hk := contrEquiv1_symm_val dot_S1x128_S128x16384_S1x16384_1_0_0_1_n_n 128 rfl rfl k
  have el : dot_S1x128_S128x16384_S1x16384_1_0_0_1_n_n.lhsIdx (ix2 (0 : Fin 1) q) ((contrEquiv1 dot_S1x128_S128x16384_S1x16384_1_0_0_1_n_n 128 rfl rfl).symm k) = ix2 (0 : Fin 1) k := funext fun a => Fin.ext (by
    match a with
    | ⟨0, _⟩ => exact lhsC_0 _ _
    | ⟨1, _⟩ => exact (lhsC_1 _ _).trans hk)
  have er : dot_S1x128_S128x16384_S1x16384_1_0_0_1_n_n.rhsIdx (ix2 (0 : Fin 1) q) ((contrEquiv1 dot_S1x128_S128x16384_S1x16384_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ## The biases -/

/-- A bias column [128,1] broadcast to [128,16384] reads its row's one entry. -/
theorem biasCol_apply (v : FVec Ideal S128x1 .f32) (h : S128x1.Broadcasts S128x16384) (p : Fin 128) (q : Fin 16384) :
    broadcastTo S128x16384 v h (ix2 p q) = v (ix2 p (0 : Fin 1)) :=
  broadcastTo_apply v h (ix2 p q) (ix2 p (0 : Fin 1)) (fun a => match a with
    | ⟨0, _⟩ => by show p.val = if (128 : Nat) = 1 then 0 else p.val; rw [if_neg (by decide)]
    | ⟨1, _⟩ => by show 0 = if (1 : Nat) = 1 then 0 else q.val; rw [if_pos rfl])

/-- The 1×1 bias broadcast to [1,16384] reads its one entry. -/
theorem biasOne_apply (v : FVec Ideal S1x1 .f32) (h : S1x1.Broadcasts S1x16384) (q : Fin 16384) :
    broadcastTo S1x16384 v h (ix2 (0 : Fin 1) q) = v (ix2 (0 : Fin 1) (0 : Fin 1)) :=
  broadcastTo_apply v h (ix2 (0 : Fin 1) q) (ix2 (0 : Fin 1) (0 : Fin 1)) (fun a => match a with
    | ⟨0, _⟩ => by show 0 = if (1 : Nat) = 1 then 0 else 0; rw [if_pos rfl]
    | ⟨1, _⟩ => by show 0 = if (1 : Nat) = 1 then 0 else q.val; rw [if_pos rfl])

/-! ## Whole layers at an element -/

/-- The first hidden layer at (p, q): tanh of the three-term sum plus row p's bias. -/
theorem hiddenA_apply (a : FVec Ideal S128x3 .bf16) (b : FVec Ideal S3x16384 .bf16) (bc : FVec Ideal S128x1 .f32)
    (h : S128x1.Broadcasts S128x16384) (p : Fin 128) (q : Fin 16384) :
    tanh (addf (matmul dot_S128x3_S3x16384_S128x16384_1_0_0_1_n_n none a b (constant (F := Ideal) S128x16384 .f32 0x00000000#32))
        (broadcastTo S128x16384 bc h)) (ix2 p q)
      = Ideal.tanh ((∑ k : Fin 3, a (ix2 p k) * b (ix2 k q)) + bc (ix2 p (0 : Fin 1))) := by
  show Ideal.tanh (matmul dot_S128x3_S3x16384_S128x16384_1_0_0_1_n_n none a b (constant (F := Ideal) S128x16384 .f32 0x00000000#32) (ix2 p q)
      + broadcastTo S128x16384 bc h (ix2 p q)) = _
  rw [mmA_apply, biasCol_apply]

/-- A later hidden layer at (p, q): tanh of the 128-term sum plus row p's bias. -/
theorem hiddenB_apply (a : FVec Ideal S128x128 .bf16) (b : FVec Ideal S128x16384 .bf16) (bc : FVec Ideal S128x1 .f32)
    (h : S128x1.Broadcasts S128x16384) (p : Fin 128) (q : Fin 16384) :
    tanh (addf (matmul dot_S128x128_S128x16384_S128x16384_1_0_0_1_n_n none a b (constant (F := Ideal) S128x16384 .f32 0x00000000#32))
        (broadcastTo S128x16384 bc h)) (ix2 p q)
      = Ideal.tanh ((∑ k : Fin 128, a (ix2 p k) * b (ix2 k q)) + bc (ix2 p (0 : Fin 1))) := by
  show Ideal.tanh (matmul dot_S128x128_S128x16384_S128x16384_1_0_0_1_n_n none a b (constant (F := Ideal) S128x16384 .f32 0x00000000#32) (ix2 p q)
      + broadcastTo S128x16384 bc h (ix2 p q)) = _
  rw [mmB_apply, biasCol_apply]

/-- The output row at (0, q): the 128-term sum plus the one bias. -/
theorem outputC_apply (a : FVec Ideal S1x128 .bf16) (b : FVec Ideal S128x16384 .bf16) (bs : FVec Ideal S1x1 .f32)
    (h : S1x1.Broadcasts S1x16384) (q : Fin 16384) :
    addf (matmul dot_S1x128_S128x16384_S1x16384_1_0_0_1_n_n none a b (constant (F := Ideal) S1x16384 .f32 0x00000000#32))
        (broadcastTo S1x16384 bs h) (ix2 (0 : Fin 1) q)
      = (∑ k : Fin 128, a (ix2 (0 : Fin 1) k) * b (ix2 k q)) + bs (ix2 (0 : Fin 1) (0 : Fin 1)) := by
  show matmul dot_S1x128_S128x16384_S1x16384_1_0_0_1_n_n none a b (constant (F := Ideal) S1x16384 .f32 0x00000000#32) (ix2 (0 : Fin 1) q)
      + broadcastTo S1x16384 bs h (ix2 (0 : Fin 1) q) = _
  rw [mmC_apply, biasOne_apply]

end Cert.KernelIdeal.Layer

end
-- ==== Proof.Payload.lean ====
/-
  The kernel body's one stored value, read at an element, is the network's output for that element's row.

  The body computes, from its nine loaded blocks, the [1,16384] row
    W₄ᵀ · tanh (W₃ᵀ · tanh (W₂ᵀ · tanh (W₁ᵀ · xᵀ + b₁) + b₂) + b₃) + b₄
  (the narrowings to bf16 are the identity on the extended reals). Told which array entry each block
  entry is — the input block's column q is input row r, each weight block is its weight matrix
  transposed, each bias block is its bias vector as a column — entry (0, q) of that row is the network
  of Spec.lean evaluated transposed at row r, hence the network's output for row r.
-/
import proofs.«141811_g62079457296719_cont_9to1c4b_771_12_alg».proof.Proof.Gen.KernelIdeal.Skeleton
import proofs.«141811_g62079457296719_cont_9to1c4b_771_12_alg».proof.Proof.Spec
import proofs.«141811_g62079457296719_cont_9to1c4b_771_12_alg».proof.Proof.KernelLayer

noncomputable section

open scoped BigOperators

namespace Cert.KernelIdeal.Payload

open Cert.KernelIdeal Cert.KernelIdeal.Gen Cert.KernelIdeal.Layer Cert.Mlp Idealize.ShloMosaic Idealize.ShloMosaic.ValueIdx

section

variable (x0 : FVec Ideal S3x16384 .f32) (x1 : FVec Ideal S128x3 .bf16) (x2 : FVec Ideal S128x1 .f32)
  (x3 : FVec Ideal S128x128 .bf16) (x4 : FVec Ideal S128x1 .f32) (x5 : FVec Ideal S128x128 .bf16)
  (x6 : FVec Ideal S128x1 .f32) (x7 : FVec Ideal S1x128 .bf16) (x8 : FVec Ideal S1x1 .f32)
  (X : (⟨2, ![131072, 3]⟩ : Shape).Idx → EReal)
  (W1 : (⟨2, ![3, 128]⟩ : Shape).Idx → EReal) (B1 : (⟨1, ![128]⟩ : Shape).Idx → EReal)
  (W2 : (⟨2, ![128, 128]⟩ : Shape).Idx → EReal) (B2 : (⟨1, ![128]⟩ : Shape).Idx → EReal)
  (W3 : (⟨2, ![128, 128]⟩ : Shape).Idx → EReal) (B3 : (⟨1, ![128]⟩ : Shape).Idx → EReal)
  (W4 : (⟨2, ![128, 1]⟩ : Shape).Idx → EReal) (B4 : (⟨1, ![1]⟩ : Shape).Idx → EReal)
  (r : Fin 131072) (q : Fin 16384)
  (h0 : ∀ k : Fin 3, x0 (ix2 k q) = X (ix2 r k))
  (h1 : ∀ (p : Fin 128) (k : Fin 3), x1 (ix2 p k) = W1 (ix2 k p))
  (h2 : ∀ p : Fin 128, x2 (ix2 p (0 : Fin 1)) = B1 (ix1 p))
  (h3 : ∀ p k : Fin 128, x3 (ix2 p k) = W2 (ix2 k p))
  (h4 : ∀ p : Fin 128, x4 (ix2 p (0 : Fin 1)) = B2 (ix1 p))
  (h5 : ∀ p k : Fin 128, x5 (ix2 p k) = W3 (ix2 k p))
  (h6 : ∀ p : Fin 128, x6 (ix2 p (0 : Fin 1)) = B3 (ix1 p))
  (h7 : ∀ k : Fin 128, x7 (ix2 (0 : Fin 1) k) = W4 (ix2 k (0 : Fin 1)))
  (h8 : x8 (ix2 (0 : Fin 1) (0 : Fin 1)) = B4 (ix1 (0 : Fin 1)))

include h0 h1 h2 in
/-- The first hidden layer's entry (p, q) is the transposed network's first layer of row r at feature p. -/
theorem first (hb : FTy.bits .bf16 < FTy.bits .f32) (hc : S128x1.Broadcasts S128x16384) (p : Fin 128) :
    tanh (addf (matmul dot_S128x3_S3x16384_S128x16384_1_0_0_1_n_n none x1 (truncf .bf16 x0 hb) (constant (F := Ideal) S128x16384 .f32 0x00000000#32))
        (broadcastTo S128x16384 x2 hc)) (ix2 p q)
      = hid1T X W1 B1 r p := by
  rw [hiddenA_apply]
  unfold hid1T denseT
  rw [h2 p]
  refine congrArg (fun s => Ideal.tanh (s + B1 (ix1 p))) (Finset.sum_congr rfl fun k _ => ?_)
  rw [h1 p k]
  exact congrArg (W1 (ix2 k p) * ·) ((truncf_apply x0 hb (ix2 k q)).trans (h0 k))

include h0 h1 h2 h3 h4 in
/-- The second hidden layer's entry (p, q). -/
theorem second (hb : FTy.bits .bf16 < FTy.bits .f32) (hc : S128x1.Broadcasts S128x16384) (p : Fin 128) :
    tanh (addf (matmul dot_S128x128_S128x16384_S128x16384_1_0_0_1_n_n none x3
          (truncf .bf16 (tanh (addf (matmul dot_S128x3_S3x16384_S128x16384_1_0_0_1_n_n none x1 (truncf .bf16 x0 hb) (constant (F := Ideal) S128x16384 .f32 0x00000000#32))
            (broadcastTo S128x16384 x2 hc))) hb)
          (constant (F := Ideal) S128x16384 .f32 0x00000000#32))
        (broadcastTo S128x16384 x4 hc)) (ix2 p q)
      = hid2T X W1 B1 W2 B2 r p := by
  rw [hiddenB_apply]
  unfold hid2T denseT
  rw [h4 p]
  refine congrArg (fun s => Ideal.tanh (s + B2 (ix1 p))) (Finset.sum_congr rfl fun k _ => ?_)
  rw [h3 p k]
  exact congrArg (W2 (ix2 k p) * ·) ((truncf_apply _ hb (ix2 k q)).trans (first x0 x1 x2 X W1 B1 r q h0 h1 h2 hb hc k))

include h0 h1 h2 h3 h4 h5 h6 in
/-- The third hidden layer's entry (p, q). -/
theorem third (hb : FTy.bits .bf16 < FTy.bits .f32) (hc : S128x1.Broadcasts S128x16384) (p : Fin 128) :
    tanh (addf (matmul dot_S128x128_S128x16384_S128x16384_1_0_0_1_n_n none x5
          (truncf .bf16 (tanh (addf (matmul dot_S128x128_S128x16384_S128x16384_1_0_0_1_n_n none x3
              (truncf .bf16 (tanh (addf (matmul dot_S128x3_S3x16384_S128x16384_1_0_0_1_n_n none x1 (truncf .bf16 x0 hb) (constant (F := Ideal) S128x16384 .f32 0x00000000#32))
                (broadcastTo S128x16384 x2 hc))) hb)
              (constant (F := Ideal) S128x16384 .f32 0x00000000#32))
            (broadcastTo S128x16384 x4 hc))) hb)
          (constant (F := Ideal) S128x16384 .f32 0x00000000#32))
        (broadcastTo S128x16384 x6 hc)) (ix2 p q)
      = hid3T X W1 B1 W2 B2 W3 B3 r p := by
  rw [hiddenB_apply]
  unfold hid3T denseT
  rw [h6 p]
  refine congrArg (fun s => Ideal.tanh (s + B3 (ix1 p))) (Finset.sum_congr rfl fun k _ => ?_)
  rw [h5 p k]
  exact congrArg (W3 (ix2 k p) * ·) ((truncf_apply _ hb (ix2 k q)).trans (second x0 x1 x2 x3 x4 X W1 B1 W2 B2 r q h0 h1 h2 h3 h4 hb hc k))

include h0 h1 h2 h3 h4 h5 h6 h7 h8 in
/-- THE PAYLOAD AT AN ELEMENT: entry (0, q) of what the body stores is the network's output for row r. -/
theorem pay_apply :
    k0_pay1 (F := Ideal) x0 x1 x2 x3 x4 x5 x6 x7 x8 (ix2 (0 : Fin 1) q) = outRow X W1 B1 W2 B2 W3 B3 W4 B4 r := by
  rw [← outRowT_eq]
  unfold k0_pay1
  simp only [shapeCast_self]
  rw [outputC_apply]
  unfold outRowT denseT
  rw [h8]
  refine congrArg (· + B4 (ix1 (0 : Fin 1))) (Finset.sum_congr rfl fun k _ => ?_)
  rw [h7 k]
  exact congrArg (W4 (ix2 k (0 : Fin 1)) * ·) ((truncf_apply (ψ := .bf16) _ bitsLt_bf16_f32 (ix2 k q)).trans
    (third x0 x1 x2 x3 x4 x5 x6 X W1 B1 W2 B2 W3 B3 r q h0 h1 h2 h3 h4 h5 h6 bitsLt_bf16_f32 broadcasts_S128x1_S128x16384 k))

end

end Cert.KernelIdeal.Payload

end
-- ==== Proof.Blocks.lean ====
/-
  Which entry of an argument array each entry of a staged block is.

  Before the kernel runs, the host lays the arguments out for the transposed evaluation: the input
  [131072,3] is transposed to [3,131072]; each weight matrix is transposed (and narrowed to bf16, the
  identity on the extended reals); each bias vector [n] is reshaped to a column [n,1]. The grid has eight
  points; at point t the kernel sees columns 16384·t … 16384·t + 16383 of the transposed input and the
  whole of every weight and bias. Hence, at point t:
    entry (k, q) of the input block      is entry (16384·t + q, k) of the input,
    entry (p, k) of a weight block       is entry (k, p) of that weight matrix,
    entry (p, 0) of a bias block         is entry p of that bias vector.
-/
import proofs.«141811_g62079457296719_cont_9to1c4b_771_12_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays the region finds: the host's transposes, narrowings and reshapes of the arguments -/

theorem V_v0 (c : Dev nD) : (V m c main_v0 : S3x131072.Idx → Elt Ideal .f32)
    = transpose S3x131072 [1, 0] (m ((c : Thread nD τ).loc main_arg0) : S131072x3.Idx → Elt Ideal .f32) transposes_S131072x3_S3x131072_1_0 := by
  show StableHlo.after hostOps0 (fun b => m (c, b)) (Proc.devRef .tc main_v0) = _
  after_results <;> rfl

theorem V_v2 (c : Dev nD) : (V m c main_v2 : S128x3.Idx → Elt Ideal .bf16)
    = (truncf .bf16 (transpose S128x3 [1, 0] (m ((c : Thread nD τ).loc main_arg1) : S3x128.Idx → Elt Ideal .f32) transposes_S3x128_S128x3_1_0) bitsLt_bf16_f32 : FVec Ideal S128x3 .bf16) := by
  show StableHlo.after hostOps0 (fun b => m (c, b)) (Proc.devRef .tc main_v2) = _
  after_results <;> rfl

theorem V_v4 (c : Dev nD) : (V m c main_v4 : S128x128.Idx → Elt Ideal .bf16)
    = (truncf .bf16 (transpose S128x128 [1, 0] (m ((c : Thread nD τ).loc main_arg3) : S128x128.Idx → Elt Ideal .f32) transposes_S128x128_S128x128_1_0) bitsLt_bf16_f32 : FVec Ideal S128x128 .bf16) := by
  show StableHlo.after hostOps0 (fun b => m (c, b)) (Proc.devRef .tc main_v4) = _
  after_results <;> rfl

theorem V_v6 (c : Dev nD) : (V m c main_v6 : S128x128.Idx → Elt Ideal .bf16)
    = (truncf .bf16 (transpose S128x128 [1, 0] (m ((c : Thread nD τ).loc main_arg5) : S128x128.Idx → Elt Ideal .f32) transposes_S128x128_S128x128_1_0) bitsLt_bf16_f32 : FVec Ideal S128x128 .bf16) := by
  show StableHlo.after hostOps0 (fun b => m (c, b)) (Proc.devRef .tc main_v6) = _
  after_results <;> rfl

theorem V_v8 (c : Dev nD) : (V m c main_v8 : S1x128.Idx → Elt Ideal .bf16)
    = (truncf .bf16 (transpose S1x128 [1, 0] (m ((c : Thread nD τ).loc main_arg7) : S128x1.Idx → Elt Ideal .f32) transposes_S128x1_S1x128_1_0) bitsLt_bf16_f32 : FVec Ideal S1x128 .bf16) := by
  show StableHlo.after hostOps0 (fun b => m (c, b)) (Proc.devRef .tc main_v8) = _
  after_results <;> rfl

theorem V_v9 (c : Dev nD) : (V m c main_v9 : S128x1.Idx → Elt Ideal .f32)
    = shapeCast S128x1 (m ((c : Thread nD τ).loc main_arg2) : S128.Idx → Elt Ideal .f32) shapeCasts_S128_S128x1 := by
  show StableHlo.after hostOps0 (fun b => m (c, b)) (Proc.devRef .tc main_v9) = _
  after_results <;> rfl

theorem V_v10 (c : Dev nD) : (V m c main_v10 : S128x1.Idx → Elt Ideal .f32)
    = shapeCast S128x1 (m ((c : Thread nD τ).loc main_arg4) : S128.Idx → Elt Ideal .f32) shapeCasts_S128_S128x1 := by
  show StableHlo.after hostOps0 (fun b => m (c, b)) (Proc.devRef .tc main_v10) = _
  after_results <;> rfl

theorem V_v11 (c : Dev nD) : (V m c main_v11 : S128x1.Idx → Elt Ideal .f32)
    = shapeCast S128x1 (m ((c : Thread nD τ).loc main_arg6) : S128.Idx → Elt Ideal .f32) shapeCasts_S128_S128x1 := by
  show StableHlo.after hostOps0 (fun b => m (c, b)) (Proc.devRef .tc main_v11) = _
  after_results <;> rfl

theorem V_v12 (c : Dev nD) : (V m c main_v12 : S1x1.Idx → Elt Ideal .f32)
    = shapeCast S1x1 (m ((c : Thread nD τ).loc main_arg8) : S1.Idx → Elt Ideal .f32) shapeCasts_S1_S1x1 := by
  show StableHlo.after hostOps0 (fun b => m (c, b)) (Proc.devRef .tc main_v12) = _
  after_results <;> rfl

/-! ## Where each window's block sits at a grid point -/

/-- The printed index maps, decided over the eight points: the input and the output move along their
    second axis with the point; every weight and bias stays at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val :=
  (by decide +kernel : ∀ t : Fin grid0.N, _)

/-! ## The blocks' entries as entries of the arguments -/

/-- Entry (k, q) of the input block at point t is entry (16384·t + q, k) of the input. -/
theorem input_apply (c : Dev nD) (t : Fin cfg0.N) (k : Fin 3) (q : Fin 16384) (n : Fin 131072)
    (hn : n.val = 16384 * t.val + q.val) :
    (iblk m c 0 t : Vec Ideal S3x16384 .f32) (ix2 k q)
      = (m ((c : Thread nD τ).loc main_arg0) : S131072x3.Idx → Elt Ideal .f32) (ix2 n k) := by
  obtain ⟨e0, e1, -⟩ := idx_facts t
  unfold iblk
  rw [View.read_apply]
  show V m c main_v0 _ = _
  refine (congrFun (V_v0 m c) _).trans ?_
  exact transpose_apply [1, 0] _ _ _ (ix2 n k) (fun b => match b with
    | ⟨0, _⟩ => by show k.val = win0_0.index t (0 : Fin 2) * 3 + 1 * k.val; rw [e0]; omega
    | ⟨1, _⟩ => by show n.val = win0_0.index t (1 : Fin 2) * 16384 + 1 * q.val; rw [e1, hn]; omega)

/-- Entry (p, k) of the first weight block is entry (k, p) of W₁. -/
theorem w1_apply (c : Dev nD) (t : Fin cfg0.N) (p : Fin 128) (k : Fin 3) :
    (iblk m c 1 t : Vec Ideal S128x3 .bf16) (ix2 p k)
      = (m ((c : Thread nD τ).loc main_arg1) : S3x128.Idx → Elt Ideal .f32) (ix2 k p) := by
  obtain ⟨-, -, e0, e1, -⟩ := idx_facts t
  unfold iblk
  rw [View.read_apply]
  show V m c main_v2 _ = _
  refine (congrFun (V_v2 m c) _).trans ?_
  refine (truncf_apply (ψ := .bf16) _ bitsLt_bf16_f32 _).trans ?_
  exact transpose_apply [1, 0] _ _ _ (ix2 k p) (fun b => match b with
    | ⟨0, _⟩ => by show p.val = win0_1.index t (0 : Fin 2) * 128 + 1 * p.val; rw [e0]; omega
    | ⟨1, _⟩ => by show k.val = win0_1.index t (1 : Fin 2) * 3 + 1 * k.val; rw [e1]; omega)

/-- Entry (p, 0) of the first bias block is entry p of b₁. -/
theorem b1_apply (c : Dev nD) (t : Fin cfg0.N) (p : Fin 128) :
    (iblk m c 2 t : Vec Ideal S128x1 .f32) (ix2 p (0 : Fin 1))
      = (m ((c : Thread nD τ).loc main_arg2) : S128.Idx → Elt Ideal .f32) (ix1 p) := by
  obtain ⟨-, -, -, -, e0, e1, -⟩ := idx_facts t
  unfold iblk
  rw [View.read_apply]
  show V m c main_v9 _ = _
  refine (congrFun (V_v9 m c) _).trans ?_
  exact shapeCast_apply _ _ _ (ix1 p) (by
    rw [Shape.rowMajor_val_one, Shape.rowMajor_val_two]
    show p.val = (win0_2.index t (0 : Fin 2) * 128 + 1 * p.val) * 1 + (win0_2.index t (1 : Fin 2) * 1 + 1 * 0)
    rw [e0, e1]; omega)

/-- Entry (p, k) of the second weight block is entry (k, p) of W₂. -/
theorem w2_apply (c : Dev nD) (t : Fin cfg0.N) (p k : Fin 128) :
    (iblk m c 3 t : Vec Ideal S128x128 .bf16) (ix2 p k)
      = (m ((c : Thread nD τ).loc main_arg3) : S128x128.Idx → Elt Ideal .f32) (ix2 k p) := by
  obtain ⟨-, -, -, -, -, -, e0, e1, -⟩ := idx_facts t
  unfold iblk
  rw [View.read_apply]
  show V m c main_v4 _ = _
  refine (congrFun (V_v4 m c) _).trans ?_
  refine (truncf_apply (ψ := .bf16) _ bitsLt_bf16_f32 _).trans ?_
  exact transpose_apply [1, 0] _ _ _ (ix2 k p) (fun b => match b with
    | ⟨0, _⟩ => by show p.val = win0_3.index t (0 : Fin 2) * 128 + 1 * p.val; rw [e0]; omega
    | ⟨1, _⟩ => by show k.val = win0_3.index t (1 : Fin 2) * 128 + 1 * k.val; rw [e1]; omega)

/-- Entry (p, 0) of the second bias block is entry p of b₂. -/
theorem b2_apply (c : Dev nD) (t : Fin cfg0.N) (p : Fin 128) :
    (iblk m c 4 t : Vec Ideal S128x1 .f32) (ix2 p (0 : Fin 1))
      = (m ((c : Thread nD τ).loc main_arg4) : S128.Idx → Elt Ideal .f32) (ix1 p) := by
  obtain ⟨-, -, -, -, -, -, -, -, e0, e1, -⟩ := idx_facts t
  unfold iblk
  rw [View.read_apply]
  show V m c main_v10 _ = _
  refine (congrFun (V_v10 m c) _).trans ?_
  exact shapeCast_apply _ _ _ (ix1 p) (by
    rw [Shape.rowMajor_val_one, Shape.rowMajor_val_two]
    show p.val = (win0_4.index t (0 : Fin 2) * 128 + 1 * p.val) * 1 + (win0_4.index t (1 : Fin 2) * 1 + 1 * 0)
    rw [e0, e1]; omega)

/-- Entry (p, k) of the third weight block is entry (k, p) of W₃. -/
theorem w3_apply (c : Dev nD) (t : Fin cfg0.N) (p k : Fin 128) :
    (iblk m c 5 t : Vec Ideal S128x128 .bf16) (ix2 p k)
      = (m ((c : Thread nD τ).loc main_arg5) : S128x128.Idx → Elt Ideal .f32) (ix2 k p) := by
  obtain ⟨-, -, -, -, -, -, -, -, -, -, e0, e1, -⟩ := idx_facts t
  unfold iblk
  rw [View.read_apply]
  show V m c main_v6 _ = _
  refine (congrFun (V_v6 m c) _).trans ?_
  refine (truncf_apply (ψ := .bf16) _ bitsLt_bf16_f32 _).trans ?_
  exact transpose_apply [1, 0] _ _ _ (ix2 k p) (fun b => match b with
    | ⟨0, _⟩ => by show p.val = win0_5.index t (0 : Fin 2) * 128 + 1 * p.val; rw [e0]; omega
    | ⟨1, _⟩ => by show k.val = win0_5.index t (1 : Fin 2) * 128 + 1 * k.val; rw [e1]; omega)

/-- Entry (p, 0) of the third bias block is entry p of b₃. -/
theorem b3_apply (c : Dev nD) (t : Fin cfg0.N) (p : Fin 128) :
    (iblk m c 6 t : Vec Ideal S128x1 .f32) (ix2 p (0 : Fin 1))
      = (m ((c : Thread nD τ).loc main_arg6) : S128.Idx → Elt Ideal .f32) (ix1 p) := by
  obtain ⟨-, -, -, -, -, -, -, -, -, -, -, -, e0, e1, -⟩ := idx_facts t
  unfold iblk
  rw [View.read_apply]
  show V m c main_v11 _ = _
  refine (congrFun (V_v11 m c) _).trans ?_
  exact shapeCast_apply _ _ _ (ix1 p) (by
    rw [Shape.rowMajor_val_one, Shape.rowMajor_val_two]
    show p.val = (win0_6.index t (0 : Fin 2) * 128 + 1 * p.val) * 1 + (win0_6.index t (1 : Fin 2) * 1 + 1 * 0)
    rw [e0, e1]; omega)

/-- Entry (0, k) of the output weight block is entry (k, 0) of W₄. -/
theorem w4_apply (c : Dev nD) (t : Fin cfg0.N) (k : Fin 128) :
    (iblk m c 7 t : Vec Ideal S1x128 .bf16) (ix2 (0 : Fin 1) k)
      = (m ((c : Thread nD τ).loc main_arg7) : S128x1.Idx → Elt Ideal .f32) (ix2 k (0 : Fin 1)) := by
  obtain ⟨-, -, -, -, -, -, -, -, -, -, -, -, -, -, e0, e1, -⟩ := idx_facts t
  unfold iblk
  rw [View.read_apply]
  show V m c main_v8 _ = _
  refine (congrFun (V_v8 m c) _).trans ?_
  refine (truncf_apply (ψ := .bf16) _ bitsLt_bf16_f32 _).trans ?_
  exact transpose_apply [1, 0] _ _ _ (ix2 k (0 : Fin 1)) (fun b => match b with
    | ⟨0, _⟩ => by show 0 = win0_7.index t (0 : Fin 2) * 1 + 1 * 0; rw [e0]
    | ⟨1, _⟩ => by show k.val = win0_7.index t (1 : Fin 2) * 128 + 1 * k.val; rw [e1]; omega)

/-- The one entry of the output bias block is the one entry of b₄. -/
theorem b4_apply (c : Dev nD) (t : Fin cfg0.N) :
    (iblk m c 8 t : Vec Ideal S1x1 .f32) (ix2 (0 : Fin 1) (0 : Fin 1))
      = (m ((c : Thread nD τ).loc main_arg8) : S1.Idx → Elt Ideal .f32) (ix1 (0 : Fin 1)) := by
  obtain ⟨-, -, -, -, -, -, -, -, -, -, -, -, -, -, -, -, e0, e1, -⟩ := idx_facts t
  unfold iblk
  rw [View.read_apply]
  show V m c main_v12 _ = _
  refine (congrFun (V_v12 m c) _).trans ?_
  exact shapeCast_apply _ _ _ (ix1 (0 : Fin 1)) (by
    rw [Shape.rowMajor_val_one, Shape.rowMajor_val_two]
    show 0 = (win0_8.index t (0 : Fin 2) * 1 + 1 * 0) * 1 + (win0_8.index t (1 : Fin 2) * 1 + 1 * 0)
    rw [e0, e1])

end Cert.KernelIdeal.Blocks

end
-- ==== Proof.KernelValue.lean ====
/-
  What the kernel's program leaves in its result, as one function of the argument arrays.

  At grid point t the body stores, into columns 16384·t … 16384·t + 16383 of the [1,131072] output, a row
  whose entry (0, q) is the network's output for input row 16384·t + q (Payload.lean over the block
  readings of Blocks.lean). The eight column blocks tile the output, so after the run the output array is
  entry (0, r) ↦ the network's output for row r. The host's closing reshape [1,131072] → [131072,1] keeps
  row-major position, so the program's result holds at (r, 0) the network's output for row r.
-/
import proofs.«141811_g62079457296719_cont_9to1c4b_771_12_alg».proof.Proof.Gen.KernelIdeal.Frame
import proofs.«141811_g62079457296719_cont_9to1c4b_771_12_alg».proof.Proof.Spec
import proofs.«141811_g62079457296719_cont_9to1c4b_771_12_alg».proof.Proof.Payload
import proofs.«141811_g62079457296719_cont_9to1c4b_771_12_alg».proof.Proof.Blocks
import Idealize.ShloMosaic.Lib.Pipeline.Value
import Idealize.ShloMosaic.Lib.ValueIdx
import Idealize.ShloMosaic.Lib.StableHlo.Run

noncomputable section

namespace Cert.KernelIdeal.KernelValue

open Cert.KernelIdeal Cert.KernelIdeal.Gen Cert.KernelIdeal.Blocks Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The kernel's output array [1,131072] after the run: entry (0, r) is the network's output for row r. -/
abbrev rowOut (c : Dev nD) : S1x131072.Idx → Elt Ideal .f32 :=
  Cert.Mlp.resultT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The program's result [131072,1]: entry (r, 0) is the network's output for row r. -/
abbrev colOut (c : Dev nD) : S131072x1.Idx → Elt Ideal .f32 :=
  Cert.Mlp.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- WHAT POINT t WRITES BACK is block t of `rowOut`. -/
theorem flushed_eq (c : Dev nD) (t : Fin cfg0.N) (hf : (cfg0.win 9).flush t = true) :
    (dats m 0 c).flushed 9 t = ((cfg0.win 9).blk t).view.read (Elt Ideal) (rowOut m c) := by
  have hN : cfg0.N = 8 := N_0
  have ht : t.val < 8 := lt_of_lt_of_eq t.isLt hN
  obtain ⟨-, -, -, -, -, -, -, -, -, -, -, -, -, -, -, -, -, -, -, e9⟩ := idx_facts t
  show (cfg0.win 9).cut (grid0.coords t) ((dats m 0 c).after 9 t) = _
  rw [after0_9]
  unfold out0_9
  rw [View.canon_unit_zero hz]
  simp only [View.ld_unit_zero (S := S3x16384) hz, View.ld_unit_zero (S := S128x3) hz, View.ld_unit_zero (S := S128x1) hz,
    View.ld_unit_zero (S := S128x128) hz, View.ld_unit_zero (S := S1x128) hz, View.ld_unit_zero (S := S1x1) hz]
  funext j
  obtain ⟨z, q, rfl⟩ : ∃ (z : Fin 1) (q : Fin 16384), j = ix2 z q := ⟨j 0, j 1, eq_ix2 j⟩
  obtain rfl : z = 0 := Subsingleton.elim _ _
  have hq : q.val < 16384 := q.isLt
  rw [View.read_apply]
  show k0_pay1 (iblk m c 0 t) (iblk m c 1 t) (iblk m c 2 t) (iblk m c 3 t) (iblk m c 4 t) (iblk m c 5 t) (iblk m c 6 t)
    (iblk m c 7 t) (iblk m c 8 t) (ix2 (0 : Fin 1) q) = _
  refine (Cert.KernelIdeal.Payload.pay_apply (iblk m c 0 t) (iblk m c 1 t) (iblk m c 2 t) (iblk m c 3 t) (iblk m c 4 t)
    (iblk m c 5 t) (iblk m c 6 t) (iblk m c 7 t) (iblk m c 8 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    ⟨16384 * t.val + q.val, by omega⟩ q
    (fun k => input_apply m c t k q ⟨16384 * t.val + q.val, by omega⟩ rfl)
    (fun p k => w1_apply m c t p k) (fun p => b1_apply m c t p)
    (fun p k => w2_apply m c t p k) (fun p => b2_apply m c t p)
    (fun p k => w3_apply m c t p k) (fun p => b3_apply m c t p)
    (fun k => w4_apply m c t k) (b4_apply m c t)).trans ?_
  show Cert.Mlp.outRow _ _ _ _ _ _ _ _ _ _ = Cert.Mlp.outRow _ _ _ _ _ _ _ _ _ _
  refine congrArg (Cert.Mlp.outRow _ _ _ _ _ _ _ _ _) (Fin.ext ?_)
  show 16384 * t.val + q.val = win0_9.index t (1 : Fin 2) * 16384 + 1 * q.val
  rw [e9]; omega

/-- An index of the output array is in point t's block iff each coordinate is in the block's range. -/
theorem mem_blk (t : Fin cfg0.N) (i : S1x131072.Idx) :
    i ∈ ((cfg0.win 9).blk t).view.set ↔ ∀ a : Fin 2, win0_9.index t a * S1x16384.size a ≤ (i a).val ∧ (i a).val < win0_9.index t a * S1x16384.size a + S1x16384.size a := by
  show i ∈ ((View.whole main_v13).slice (win0_9.rect t)).set ↔ _
  rw [View.set_slice_whole, Rect.mem_set_unit]
  exact Iff.rfl

/-- Every column of the output is in the block of the point its index divided by 16384 names. -/
theorem cover (i : S1x131072.Idx) : ∃ t : Fin cfg0.N, (cfg0.win 9).flush t = true ∧ i ∈ ((cfg0.win 9).blk t).view.set := by
  have hN : cfg0.N = 8 := N_0
  have hi0 : (i 0).val < 1 := (i 0).isLt
  have hi1 : (i 1).val < 131072 := (i 1).isLt
  obtain ⟨t, ht⟩ : ∃ t : Fin cfg0.N, t.val = (i 1).val / 16384 := ⟨⟨(i 1).val / 16384, by rw [hN]; omega⟩, rfl⟩
  obtain ⟨-, -, -, -, -, -, -, -, -, -, -, -, -, -, -, -, -, -, e0, e1⟩ := idx_facts t
  refine ⟨t, flush0_9 t, ?_⟩
  rw [mem_blk]
  intro a
  match a with
  | ⟨0, _⟩ =>
    show win0_9.index t (0 : Fin 2) * 1 ≤ (i 0).val ∧ (i 0).val < win0_9.index t (0 : Fin 2) * 1 + 1
    rw [e0]; omega
  | ⟨1, _⟩ =>
    show win0_9.index t (1 : Fin 2) * 16384 ≤ (i 1).val ∧ (i 1).val < win0_9.index t (1 : Fin 2) * 16384 + 16384
    rw [e1, ht]; omega

/-- THE OUTPUT ARRAY after the run is `rowOut`. -/
theorem final (c : Dev nD) : (dats m 0 c).arrAt 9 cfg0.N = rowOut m c :=
  (dats m 0 c).arrAt_eq_of_cover 9 (rowOut m c) (flushed_eq m c) cover

/-- THE PROGRAM'S RESULT: the closing reshape of the output array is `colOut`. -/
theorem tail_eq (c : Dev nD) :
    (Pipeline.afterTail₀ cfgs (dats m) 0 (V0 m) [hostOps1] c main_v14 : S131072x1.Idx → Elt Ideal .f32) = colOut m c := by
  have hA := (Pipeline.withArrays_arr spec0 launch0.win.arr_inj c (V0 m c) (fun w => (dats m 0 c).arrAt w cfg0.N) 9).trans (final m c)
  unfold Pipeline.afterTail₀
  show StableHlo.after hostOps1 _ (Proc.devRef .tc main_v14) = _
  after_results
  funext i
  obtain ⟨n, z, rfl⟩ : ∃ (n : Fin 131072) (z : Fin 1), i = ix2 n z := ⟨i 0, i 1, eq_ix2 i⟩
  obtain rfl : z = 0 := Subsingleton.elim _ _
  refine (shapeCast_apply _ _ _ (ix2 (0 : Fin 1) n) ?_).trans ?_
  · rw [Shape.rowMajor_val_two]
    refine Eq.trans ?_ (Shape.rowMajor_val_two (d := ![131072, 1]) (ix2 n (0 : Fin 1))).symm
    show 0 * 131072 + n.val = n.val * 1 + 0
    omega
  · exact congrFun hA (ix2 (0 : Fin 1) n)

/-- The run, read: the result at `colOut`, every argument unchanged. -/
theorem run : θ_run defs (onTc (τ := τ) (main (F := Ideal))) ⟨m, fun _ => 0, ρ⟩ fun r => ∀ c : Dev nD,
      r.2.mem ((c : Thread nD τ).loc main_v14) = colOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h c).2 main_v14 (Pipeline.mem_restRefs_of main_v14 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KernelValue

end
-- ==== Proof.RefValue.lean ====
/-
  The reference computes the network of Spec.lean, read off its straight line one operation at a time.

  The reference is four matrix products in row-major form, each bias broadcast over the rows and added,
  tanh after the first three. Read at a row r and a feature j, each product is the finite sum over the
  contracted axis, each broadcast bias is the bias vector's entry j, and the host's tanh is the same
  extended-real tanh as the kernel's; so the three hidden stages are `hid1`, `hid2`, `hid3` of row r and
  the result's entry (r, 0) is `outRow` of row r.
-/
import proofs.«141811_g62079457296719_cont_9to1c4b_771_12_alg».proof.Proof.Gen.ReferenceIdeal.Read
import proofs.«141811_g62079457296719_cont_9to1c4b_771_12_alg».proof.Proof.Spec

noncomputable section

open scoped BigOperators

namespace Cert.ReferenceIdeal.RefValue

open Cert.ReferenceIdeal Cert.ReferenceIdeal.Gen Cert.ReferenceIdeal.Read Cert.Mlp Idealize.ShloMosaic Idealize.ShloMosaic.ValueIdx

/-! ## The index functions of the generated read lemmas, at an index given by coordinates -/

theorem lidx0 (r : Fin 131072) (j : Fin 128) (k : Fin 3) : lidx_main_v0 (ix2 r j) k = ix2 r k :=
  funext fun a => Fin.ext (by match a with | ⟨0, _⟩ => rfl | ⟨1, _⟩ => rfl)
theorem ridx0 (r : Fin 131072) (j : Fin 128) (k : Fin 3) : ridx_main_v0 (ix2 r j) k = ix2 k j :=
  funext fun a => Fin.ext (by match a with | ⟨0, _⟩ => rfl | ⟨1, _⟩ => rfl)
theorem bidx2 (r : Fin 131072) (j : Fin 128) : idx_main_v1 (idx_main_v2 (ix2 r j)) = ix1 j :=
  funext fun a => Fin.ext (by match a with | ⟨0, _⟩ => rfl)
theorem lidx5 (r : Fin 131072) (j k : Fin 128) : lidx_main_v5 (ix2 r j) k = ix2 r k :=
  funext fun a => Fin.ext (by match a with | ⟨0, _⟩ => rfl | ⟨1, _⟩ => rfl)
theorem ridx5 (r : Fin 131072) (j k : Fin 128) : ridx_main_v5 (ix2 r j) k = ix2 k j :=
  funext fun a => Fin.ext (by match a with | ⟨0, _⟩ => rfl | ⟨1, _⟩ => rfl)
theorem bidx7 (r : Fin 131072) (j : Fin 128) : idx_main_v6 (idx_main_v7 (ix2 r j)) = ix1 j :=
  funext fun a => Fin.ext (by match a with | ⟨0, _⟩ => rfl)
theorem lidx10 (r : Fin 131072) (j k : Fin 128) : lidx_main_v10 (ix2 r j) k = ix2 r k :=
  funext fun a => Fin.ext (by match a with | ⟨0, _⟩ => rfl | ⟨1, _⟩ => rfl)
theorem ridx10 (r : Fin 131072) (j k : Fin 128) : ridx_main_v10 (ix2 r j) k = ix2 k j :=
  funext fun a => Fin.ext (by match a with | ⟨0, _⟩ => rfl | ⟨1, _⟩ => rfl)
theorem bidx12 (r : Fin 131072) (j : Fin 128) : idx_main_v11 (idx_main_v12 (ix2 r j)) = ix1 j :=
  funext fun a => Fin.ext (by match a with | ⟨0, _⟩ => rfl)
theorem lidx15 (r : Fin 131072) (k : Fin 128) : lidx_main_v15 (ix2 r (0 : Fin 1)) k = ix2 r k :=
  funext fun a => Fin.ext (by match a with | ⟨0, _⟩ => rfl | ⟨1, _⟩ => rfl)
theorem ridx15 (r : Fin 131072) (k : Fin 128) : ridx_main_v15 (ix2 r (0 : Fin 1)) k = ix2 k (0 : Fin 1) :=
  funext fun a => Fin.ext (by match a with | ⟨0, _⟩ => rfl | ⟨1, _⟩ => rfl)
theorem bidx17 (r : Fin 131072) : idx_main_v16 (idx_main_v17 (ix2 r (0 : Fin 1))) = ix1 (0 : Fin 1) :=
  funext fun a => Fin.ext (by match a with | ⟨0, _⟩ => rfl)

section

variable (x0 : (⟨S131072x3, .f32⟩ : BufTy).Contents (Elt Ideal)) (x1 : (⟨S3x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x1, .f32⟩ : BufTy).Contents (Elt Ideal))
  (x8 : (⟨S1, .f32⟩ : BufTy).Contents (Elt Ideal))

/-- The first tanh stage at (r, j) is the first hidden layer of row r at feature j. -/
theorem stage1 (r : Fin 131072) (j : Fin 128) : val_main_v4 (F := Ideal) x0 x1 x2 (ix2 r j) = hid1 x0 x1 x2 r j := by
  rw [val_main_v4_apply, val_main_v3_apply, val_main_v0_apply, val_main_v2_apply, val_main_v1_apply]
  simp only [lidx0, ridx0, bidx2]
  rfl

/-- The second tanh stage at (r, j). -/
theorem stage2 (r : Fin 131072) (j : Fin 128) : val_main_v9 (F := Ideal) x0 x1 x2 x3 x4 (ix2 r j) = hid2 x0 x1 x2 x3 x4 r j := by
  rw [val_main_v9_apply, val_main_v8_apply, val_main_v5_apply, val_main_v7_apply, val_main_v6_apply]
  simp only [lidx5, ridx5, bidx7, stage1]
  rfl

/-- The third tanh stage at (r, j). -/
theorem stage3 (r : Fin 131072) (j : Fin 128) :
    val_main_v14 (F := Ideal) x0 x1 x2 x3 x4 x5 x6 (ix2 r j) = hid3 x0 x1 x2 x3 x4 x5 x6 r j := by
  rw [val_main_v14_apply, val_main_v13_apply, val_main_v10_apply, val_main_v12_apply, val_main_v11_apply]
  simp only [lidx10, ridx10, bidx12, stage2]
  rfl

/-- The result's entry (r, 0) is the network's output for row r. -/
theorem stage4 (r : Fin 131072) :
    val_main_v18 (F := Ideal) x0 x1 x2 x3 x4 x5 x6 x7 x8 (ix2 r (0 : Fin 1)) = outRow x0 x1 x2 x3 x4 x5 x6 x7 x8 r := by
  rw [val_main_v18_apply, val_main_v15_apply, val_main_v17_apply, val_main_v16_apply]
  simp only [lidx15, ridx15, bidx17, stage3]
  rfl

/-- THE REFERENCE'S RESULT is the network's result array. -/
theorem result_eq : val_main_v18 (F := Ideal) x0 x1 x2 x3 x4 x5 x6 x7 x8 = result x0 x1 x2 x3 x4 x5 x6 x7 x8 := by
  funext i
  obtain ⟨r, z, rfl⟩ : ∃ (r : Fin 131072) (z : Fin 1), i = ix2 r z := ⟨i 0, i 1, eq_ix2 i⟩
  obtain rfl : z = 0 := Subsingleton.elim _ _
  exact stage4 x0 x1 x2 x3 x4 x5 x6 x7 x8 r

end

end Cert.ReferenceIdeal.RefValue

end
-- ==== Proof.lean ====
/-
  A fused coordinate network 3 → 128 → 128 → 128 → 1 with tanh activations, evaluated by the kernel in
  transposed form (features down the rows, the batch of 131072 points along the columns, eight column
  blocks of 16384), against the row-major reference  tanh(tanh(tanh(x·W₁ + b₁)·W₂ + b₂)·W₃ + b₃)·W₄ + b₄.

  On the extended reals both programs compute, for every input row r,
      out r = ∑ k, h₃ k · W₄ k 0 + b₄ 0,   hᵢ j = tanh (∑ k, hᵢ₋₁ k · Wᵢ k j + bᵢ j),   h₀ = x r
  (Spec.lean). The kernel's products are written weight first, (Wᵀ · hᵀ) p q = ∑ k, W k p · h q k, so the
  two sides differ only by the order of the two factors of each product: commutativity of the product on
  the extended reals joins them, at the infinities too, and the precondition is not used. The narrowing
  of the matrix products' operands to bf16 is the identity on the extended reals, and the kernel's tanh
  and the host's are the same extension of tanh.

  The pieces: the network and the transposed evaluation (Spec), the kernel's arithmetic steps at an
  element (KernelLayer), the body's stored row at an element (Payload), each staged block's entries as
  entries of the arguments (Blocks), the output array and the closing reshape (KernelValue), the
  reference's stages (RefValue). The idealization rewrote nothing, so the preservation claim is trivial.
-/
import proofs.«141811_g62079457296719_cont_9to1c4b_771_12_alg».proof.Defs
import proofs.«141811_g62079457296719_cont_9to1c4b_771_12_alg».proof.Proof.Gen.Kernel
import proofs.«141811_g62079457296719_cont_9to1c4b_771_12_alg».proof.Proof.Gen.Kernel.Skeleton
import proofs.«141811_g62079457296719_cont_9to1c4b_771_12_alg».proof.Proof.Gen.Kernel.Launch
import proofs.«141811_g62079457296719_cont_9to1c4b_771_12_alg».proof.Proof.Gen.Kernel.Points
import proofs.«141811_g62079457296719_cont_9to1c4b_771_12_alg».proof.Proof.Gen.Kernel.Frame
import proofs.«141811_g62079457296719_cont_9to1c4b_771_12_alg».proof.Proof.Gen.KernelIdeal
import proofs.«141811_g62079457296719_cont_9to1c4b_771_12_alg».proof.Proof.Gen.KernelIdeal.Skeleton
import proofs.«141811_g62079457296719_cont_9to1c4b_771_12_alg».proof.Proof.Gen.KernelIdeal.Launch
import proofs.«141811_g62079457296719_cont_9to1c4b_771_12_alg».proof.Proof.Gen.KernelIdeal.Points
import proofs.«141811_g62079457296719_cont_9to1c4b_771_12_alg».proof.Proof.Gen.KernelIdeal.Frame
import proofs.«141811_g62079457296719_cont_9to1c4b_771_12_alg».proof.Proof.Gen.ReferenceIdeal
import proofs.«141811_g62079457296719_cont_9to1c4b_771_12_alg».proof.Proof.Gen.ReferenceIdeal.Run
import proofs.«141811_g62079457296719_cont_9to1c4b_771_12_alg».proof.Proof.Gen.ReferenceIdeal.Read
import proofs.«141811_g62079457296719_cont_9to1c4b_771_12_alg».proof.Proof.Gen.Pre_finite_inputs
import proofs.«141811_g62079457296719_cont_9to1c4b_771_12_alg».proof.Proof.KernelValue
import proofs.«141811_g62079457296719_cont_9to1c4b_771_12_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's result array of arguments that agree. -/
theorem algebraic : Cert.algebraic_KernelIdeal_ReferenceIdeal := by
  intro m ρ m' ρ' _ hagree
  refine ⟨fun c => Cert.KernelIdeal.KernelValue.colOut m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Read.val_main_v18_eq _ _ _ _ _ _ _ _ _).trans
    (Cert.ReferenceIdeal.RefValue.result_eq _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
